-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v11_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x100000 : Shape := ⟨2, ![512, 100000]⟩
abbrev S256x1 : Shape := ⟨2, ![256, 1]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S256x512 .f32) (main_arg1 : FVec F S512x100000 .f32) (main_arg2 : FVec F S256x1 .f32) (main_arg3 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x100000 .f32 := Host.absf main_arg1
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S256x512 : Shape := ⟨2, ![256, 512]⟩
abbrev S512x100000 : Shape := ⟨2, ![512, 100000]⟩
abbrev S256x1 : Shape := ⟨2, ![256, 1]⟩
abbrev S256 : Shape := ⟨1, ![256]⟩
abbrev S_ : Shape := ⟨0, ![]⟩
abbrev S256x100000 : Shape := ⟨2, ![256, 100000]⟩
abbrev S512x2048 : Shape := ⟨2, ![512, 2048]⟩
abbrev S256x2048 : Shape := ⟨2, ![256, 2048]⟩
abbrev S2048 : Shape := ⟨1, ![2048]⟩
abbrev S1x2048 : Shape := ⟨2, ![1, 2048]⟩

abbrev nBuf : Space → Nat
  | .hbm => 32
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S512x100000, .f32⟩
  | .hbm, ⟨2, _⟩ => ⟨S256x1, .f32⟩
  | .hbm, ⟨3, _⟩ => ⟨S256, .i32⟩
  | .hbm, ⟨4, _⟩ => ⟨S256x512, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .i32⟩
  | .hbm, ⟨29, _⟩ => ⟨S256x100000, .f32⟩
  | .hbm, ⟨30, _⟩ => ⟨S256x100000, .f32⟩
  | .hbm, ⟨31, _⟩ => ⟨S256x100000, .f32⟩
  | .local _ .vmem, ⟨0, _⟩ => ⟨S256x512, .f32⟩
  | .local _ .vmem, ⟨1, _⟩ => ⟨S512x2048, .f32⟩
  | .local _ .vmem, ⟨2, _⟩ => ⟨S512x2048, .f32⟩
  | .local _ .vmem, ⟨3, _⟩ => ⟨S256x1, .i32⟩
  | .local _ .vmem, ⟨4, _⟩ => ⟨S256x1, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  shapeCasts_S256_S256x1 : S256.ShapeCasts S256x1
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  broadcasts_S1x2048_S512x2048 : S1x2048.Broadcasts S512x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  iota_S1x2048_d1_w32 : S1x2048.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  broadcasts_S1x2048_S256x2048 : S1x2048.Broadcasts S256x2048
  natLt_1_32 : 1 < 32
  inb_S256x2048_S256x2048_0_0 : ∀ a, (![0, 0] : Fin 2 → Nat) a + S256x2048.size a ≤ S256x2048.size a
  h_S256x2048 : 0 < S256x2048.numel
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x2048.size a < S512x100000.size a
  hwx0_1 : ∀ i : grid0.Coords, EltTy.bits .f32 = 32 ∨ (Rect.unit (s := S512x100000) (fun a => cc0_transform_1 i a * S512x2048.size a) (fun a => (Pipeline.Clip.of (cc0_transform_1 i a) (S512x2048.size a) (S512x100000.size a)).extent (S512x2048.size a)) fun a => Pipeline.Clip.inb (Pipeline.Clip.ok_of (hstart0_1 i a))).WholeWords (EltTy.packing .f32)
  hwxs0_1 : ∀ i : grid0.Coords, EltTy.bits .f32 = 32 ∨ (Rect.unit (s := S512x2048) (fun _ => 0) (fun a => (Pipeline.Clip.of (cc0_transform_1 i a) (S512x2048.size a) (S512x100000.size a)).extent (S512x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x2048.size a < S256x100000.size a
  hwx0_4 : ∀ i : grid0.Coords, EltTy.bits .f32 = 32 ∨ (Rect.unit (s := S256x100000) (fun a => cc0_transform_4 i a * S256x2048.size a) (fun a => (Pipeline.Clip.of (cc0_transform_4 i a) (S256x2048.size a) (S256x100000.size a)).extent (S256x2048.size a)) fun a => Pipeline.Clip.inb (Pipeline.Clip.ok_of (hstart0_4 i a))).WholeWords (EltTy.packing .f32)
  hwxs0_4 : ∀ i : grid0.Coords, EltTy.bits .f32 = 32 ∨ (Rect.unit (s := S256x2048) (fun _ => 0) (fun a => (Pipeline.Clip.of (cc0_transform_4 i a) (S256x2048.size a) (S256x100000.size a)).extent (S256x2048.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x2048.size a < S256x100000.size a
  hwx0_5 : ∀ i : grid0.Coords, EltTy.bits .f32 = 32 ∨ (Rect.unit (s := S256x100000) (fun a => cc0_transform_5 i a * S256x2048.size a) (fun a => (Pipeline.Clip.of (cc0_transform_5 i a) (S256x2048.size a) (S256x100000.size a)).extent (S256x2048.size a)) fun a => Pipeline.Clip.inb (Pipeline.Clip.ok_of (hstart0_5 i a))).WholeWords (EltTy.packing .f32)
  hwxs0_5 : ∀ i : grid0.Coords, EltTy.bits .f32 = 32 ∨ (Rect.unit (s := S256x2048) (fun _ => 0) (fun a => (Pipeline.Clip.of (cc0_transform_5 i a) (S256x2048.size a) (S256x100000.size a)).extent (S256x2048.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S256x2048.size a < S256x100000.size a
  hwx0_6 : ∀ i : grid0.Coords, EltTy.bits .f32 = 32 ∨ (Rect.unit (s := S256x100000) (fun a => cc0_transform_6 i a * S256x2048.size a) (fun a => (Pipeline.Clip.of (cc0_transform_6 i a) (S256x2048.size a) (S256x100000.size a)).extent (S256x2048.size a)) fun a => Pipeline.Clip.inb (Pipeline.Clip.ok_of (hstart0_6 i a))).WholeWords (EltTy.packing .f32)
  hwxs0_6 : ∀ i : grid0.Coords, EltTy.bits .f32 = 32 ∨ (Rect.unit (s := S256x2048) (fun _ => 0) (fun a => (Pipeline.Clip.of (cc0_transform_6 i a) (S256x2048.size a) (S256x100000.size a)).extent (S256x2048.size a)) fun a => (Nat.zero_add _).trans_le (Pipeline.Clip.extent_le (Pipeline.Clip.ok_of (hstart0_6 i a)))).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v4) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v10) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v11_0) S256x2048.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v11_1) S256x2048.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v11_2) S256x2048.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512 : Shape := ⟨2, ![256, 512]⟩
abbrev S512x100000 : Shape := ⟨2, ![512, 100000]⟩
abbrev S256x1 : Shape := ⟨2, ![256, 1]⟩
abbrev S256 : Shape := ⟨1, ![256]⟩
abbrev S_ : Shape := ⟨0, ![]⟩
abbrev S100000 : Shape := ⟨1, ![100000]⟩
abbrev S1x100000 : Shape := ⟨2, ![1, 100000]⟩
abbrev S256x100000 : Shape := ⟨2, ![256, 100000]⟩

abbrev nBuf : Space → Nat
  | .hbm => 62
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x100000, .f32⟩
  | .hbm, ⟨2, _⟩ => ⟨S256x1, .f32⟩
  | .hbm, ⟨3, _⟩ => ⟨S256, .i32⟩
  | .hbm, ⟨4, _⟩ => ⟨S256x512, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S512x100000, .f32⟩
  | .hbm, ⟨15, _⟩ => ⟨S_, .f32⟩
  | .hbm, ⟨16, _⟩ => ⟨S100000, .f32⟩
  | .hbm, ⟨17, _⟩ => ⟨S1x100000, .f32⟩
  | .hbm, ⟨18, _⟩ => ⟨S1x100000, .f32⟩
  | .hbm, ⟨19, _⟩ => ⟨S_, .f32⟩
  | .hbm, ⟨20, _⟩ => ⟨S1x100000, .f32⟩
  | .hbm, ⟨21, _⟩ => ⟨S1x100000, .f32⟩
  | .hbm, ⟨22, _⟩ => ⟨S512x100000, .f32⟩
  | .hbm, ⟨23, _⟩ => ⟨S512x100000, .f32⟩
  | .hbm, ⟨24, _⟩ => ⟨S256x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256x100000, .f32⟩
  | .hbm, ⟨29, _⟩ => ⟨S256x100000, .f32⟩
  | .hbm, ⟨30, _⟩ => ⟨S_, .f32⟩
  | .hbm, ⟨31, _⟩ => ⟨S256x100000, .f32⟩
  | .hbm, ⟨32, _⟩ => ⟨S256x100000, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .i32⟩
  | .hbm, ⟨48, _⟩ => ⟨S1x100000, .i32⟩
  | .hbm, ⟨49, _⟩ => ⟨S256x100000, .i32⟩
  | .hbm, ⟨50, _⟩ => ⟨S256x100000, .i32⟩
  | .hbm, ⟨51, _⟩ => ⟨S256x100000, .i1⟩
  | .hbm, ⟨52, _⟩ => ⟨S256x100000, .f32⟩
  | .hbm, ⟨53, _⟩ => ⟨S_, .f32⟩
  | .hbm, ⟨54, _⟩ => ⟨S256x100000, .f32⟩
  | .hbm, ⟨55, _⟩ => ⟨S256x100000, .f32⟩
  | .hbm, ⟨56, _⟩ => ⟨S256x100000, .f32⟩
  | .hbm, ⟨57, _⟩ => ⟨S256x100000, .f32⟩
  | .hbm, ⟨58, _⟩ => ⟨S256x100000, .f32⟩
  | .hbm, ⟨59, _⟩ => ⟨S_, .f32⟩
  | .hbm, ⟨60, _⟩ => ⟨S256x100000, .f32⟩
  | .hbm, ⟨61, _⟩ => ⟨S256x100000, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v16 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_v17 : Ref sig .tc := ⟨.hbm, 52, rfl⟩
abbrev main_cst_7 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_8 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  reducesTo_S512x100000_S100000_d0 : S512x100000.ReducesTo [0] S100000
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S512x100000_0_1 : S1x100000.BroadcastsInDim S512x100000 (![0, 1] : Fin 2 → Fin S512x100000.rank)
  bcast_S_S256x100000 : S_.BroadcastsInDim S256x100000 (![] : Fin 0 → Fin S256x100000.rank)
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  dot_S256x512_S512x100000_S256x100000_1_0_0_1_n_n_wf : DotDims.WF S256x512 S512x100000 S256x100000 [1] [0] [0] [1] [] []

variable [Facts₀]

def dot_S256x512_S512x100000_S256x100000_1_0_0_1_n_n : DotDims S256x512 S512x100000 S256x100000 where
  lhsContracting := [1]
  rhsContracting := [0]
  lhsNonContracting := [0]
  rhsNonContracting := [1]
  lhsBatch := []
  rhsBatch := []
  wf := dot_S256x512_S512x100000_S256x100000_1_0_0_1_n_n_wf

class Facts : Prop extends Facts₀ where

variable [Facts]
-- ==== Proof.KFrame.lean ====
/-
  The frame of the word-level kernel: it runs to the end, faults nowhere, and leaves the four argument arrays
  as they were.

  Nothing here depends on what the body computes. The body only loads whole staging buffers, does arithmetic,
  and stores whole staging buffers: whatever the seven buffers hold, it runs without a fault and hands every
  buffer back holding something. So the proof data are relational and say nothing of any buffer's contents —
  in particular nothing of the words a cut fetch leaves past the class matrix's last column, nor of what the
  matrix product makes of them. The class matrix itself is only ever read by the pipeline, so it ends as it
  began; the other three arguments are not staged arrays of the region at all and bypass it.
-/
import proofs.«135469_j16200616640758_1_alg».proof.Proof.Gen.Kernel.Frame
import proofs.«135469_j16200616640758_1_alg».proof.Proof.Gen.Kernel.Skeleton

set_option maxRecDepth 16384

noncomputable section

namespace Cert.Kernel.Runs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

set_option maxHeartbeats 4000000 in
/-- The body, on whole staging buffers holding anything, runs and hands each back holding something. -/
theorem body_runs (c : Dev nD) (E : Set ℕ) (i : grid0.Coords)
    (arg1 : Memref sig .tc .vmem S256x512 .f32) (harg1 : arg1.IsWhole) (arg2 : Memref sig .tc .vmem S512x2048 .f32) (harg2 : arg2.IsWhole)
    (arg3 : Memref sig .tc .vmem S256x1 .i32) (harg3 : arg3.IsWhole) (arg4 : Memref sig .tc .vmem S256x1 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S256x2048 .f32) (harg7 : arg7.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E
          (cc0__elastic_cosface_kernel i arg1 harg1 arg2 harg2 arg3 harg3 arg4 harg4 arg5 harg5 arg6 harg6 arg7 harg7) K := by
  simp only [cc0__elastic_cosface_kernel_eq_skeleton]; unfold cc0__elastic_cosface_kernel_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  sl_exec
  sl_step
  iapply Hk
  isplitl [H1]
  · iexists _, _; isplitr
    swap; · iexact H1
    ipureintro; rfl
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  · iexists _, _; isplitr
    swap; · iexact H7
    ipureintro; rfl

variable (m : (ℓ : Loc nD τ sig) → Buf (Elt F) ℓ) (ρ : Dev nD → PrngReg)

/-- The proof data: the arrays as the region finds them; of what the body leaves in a staging buffer, nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at a point, handed its seven current buffers at any contents `Y`. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X)
            ∗ (∃ X, ⌜(rdat m c).after 5 t (Y 5) X⌝ ∗ owns (c : Thread nD τ) (st0_5 t) fullShare X)
            ∗ (∃ X, ⌜(rdat m c).after 6 t (Y 6) X⌝ ∗ owns (c : Thread nD τ) (st0_6 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6⟩
  iapply (body_runs c Set.univ (grid0.coords t) _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iintro ⟨⟨%X0, H0⟩, ⟨%X1, H1⟩, ⟨%X2, H2⟩, ⟨%X3, H3⟩, ⟨%X4, H4⟩, ⟨%X5, H5⟩, ⟨%X6, H6⟩⟩
  isplitl [HΦ]; · iexact HΦ
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  isplitl [H3]
  · iexists X3; isplitr; · ipureintro; trivial
    iexact H3
  isplitl [H4]
  · iexists X4; isplitr; · ipureintro; trivial
    iexact H4
  isplitl [H5]
  · iexists X5; isplitr; · ipureintro; trivial
    iexact H5
  · iexists X6; isplitr; · ipureintro; trivial
    iexact H6

/-- The relational body obligation, at every point: what the buffers may hold is not used. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- The run: every weakly fair execution of @main terminates; the class matrix ends at its entry contents and every
    unscoped buffer that is no staged array of the region at what it held when the region was entered. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame: the four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Runs

end
-- ==== Proof.Body.lean ====
/-
  One run of the kernel body on whole staging buffers.

  The body reads four buffers whole — the class-matrix tile (512 x 2048), the normalised features (256 x 512),
  the labels (256 x 1) and the margins (256 x 1) — and overwrites three 256 x 2048 buffers whole: the
  pre-margin tile, the logit tile and the one-hot tile. Whatever the seven buffers hold when it starts, it
  runs to the end without a fault, leaves the four it reads as they were, and leaves each of the three it
  writes at that store's value as a function of what it read. (It also reads each output buffer once before
  overwriting it; nothing depends on what it finds there.)
-/
import proofs.«135469_j16200616640758_1_alg».proof.Proof.Gen.KernelIdeal.Frame
import proofs.«135469_j16200616640758_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the body's loads and stores. -/
abbrev rF : Rect S256x512 := Rect.unit (s := S256x512) ![0, 0] S256x512.size inb_S256x512_S256x512_0_0
abbrev rK : Rect S512x2048 := Rect.unit (s := S512x2048) ![0, 0] S512x2048.size inb_S512x2048_S512x2048_0_0
abbrev rC : Rect S256x1 := Rect.unit (s := S256x1) ![0, 0] S256x1.size inb_S256x1_S256x1_0_0
abbrev rO : Rect S256x2048 := Rect.unit (s := S256x2048) ![0, 0] S256x2048.size inb_S256x2048_S256x2048_0_0

theorem zero2 : (![0, 0] : Fin 2 → Nat) = fun _ => 0 := funext fun a => by fin_cases a <;> rfl

set_option maxHeartbeats 4000000 in
/-- The body's run: features `x0`, class-matrix tile `x1`, labels `x2`, margins `x3`; the three outputs at anything. -/
theorem sound_kernel (c : Dev nD) (E : Set ℕ) (i : grid0.Coords)
    (arg1 : Memref sig .tc .vmem S256x512 .f32) (harg1 : arg1.IsWhole) (arg2 : Memref sig .tc .vmem S512x2048 .f32) (harg2 : arg2.IsWhole)
    (arg3 : Memref sig .tc .vmem S256x1 .i32) (harg3 : arg3.IsWhole) (arg4 : Memref sig .tc .vmem S256x1 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S256x2048 .f32) (harg7 : arg7.IsWhole)
    (x0 : Vec F S256x512 .f32) (x1 : Vec F S512x2048 .f32) (x2 : Vec F S256x1 .i32) (x3 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay3 x1 x0)
            ∗ owns (c : Thread nD τ) arg6 fullShare (k0_pay4 i x1 x0 x2 x3)
            ∗ owns (c : Thread nD τ) arg7 fullShare (k0_pay2 i x2)) -∗ K ⟨⟩))
      ⊢ wp frame (wpE (defs₀ (F := F)) Variants.none c none) E
          (cc0__elastic_cosface_kernel i arg1 harg1 arg2 harg2 arg3 harg3 arg4 harg4 arg5 harg5 arg6 harg6 arg7 harg7) K := by
  simp only [cc0__elastic_cosface_kernel_eq_skeleton]; unfold cc0__elastic_cosface_kernel_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    rw [View.read_writes_eq_canon _ _ _ (fun y => ⟨_, List.mem_singleton_self _, View.mem_set_unit_zero zero2 inb_S256x2048_S256x2048_0_0 y⟩),
      View.canon_unit_zero zero2]
    simp only [View.readAt_eq_ld, View.ld_unit_zero (S := S512x2048) zero2, View.ld_unit_zero (S := S256x512) zero2]
  isplitl [H6]
  · iexists _; isplitr
    swap; · iexact H6
    ipureintro
    rw [View.read_writes_eq_canon _ _ _ (fun y => ⟨_, List.mem_singleton_self _, View.mem_set_unit_zero zero2 inb_S256x2048_S256x2048_0_0 y⟩),
      View.canon_unit_zero zero2]
    sl_unfold_words
    simp only [View.readAt_eq_ld, View.ld_unit_zero (S := S512x2048) zero2, View.ld_unit_zero (S := S256x512) zero2,
      View.ld_unit_zero (S := S256x1) zero2]
  · iexists _; isplitr
    swap; · iexact H7
    ipureintro
    rw [View.read_writes_eq_canon _ _ _ (fun y => ⟨_, List.mem_singleton_self _, View.mem_set_unit_zero zero2 inb_S256x2048_S256x2048_0_0 y⟩),
      View.canon_unit_zero zero2]
    sl_unfold_words
    simp only [View.readAt_eq_ld, View.ld_unit_zero (S := S256x1) zero2]

end Cert.KernelIdeal.Body

end
-- ==== Proof.Spec.lean ====
/-
  The mathematics both programs compute, entry by entry, over the extended reals.

  For a feature row `f` (512 entries, already divided by its own floored norm on the host) and a
  column `K` of the class matrix (512 entries):
    * `colDen K`  = max (sqrt (0 + sum_k K_k * K_k)) eps        -- the column's floored Euclidean norm
    * `cosv f K`  = min hi (max lo (sum_k f_k * (K_k / colDen K)))   -- the clipped cosine
    * `pre f K`   = cosv f K * 64                                  -- the pre-margin logit
    * `hot l c`   = 1 if the label word `l` equals the column's index word `c`, else 0
    * `logit`     = (cosv f K - hot l c * margin) * 64
  The kernel computes these on a tile of 2048 columns, the reference on all 100000 columns at once; both
  spell the same operations in the same order, so no law of the extended reals beyond the identity is needed.
-/
import Idealize.ShloMosaic.PureOps.Ideal

noncomputable section

namespace Cert.Spec

open Idealize.ShloMosaic

/-- The floored Euclidean norm of one column of the class matrix. -/
def colDen (K : Fin 512 → EReal) : EReal :=
  max (Ideal.sqrt (Ideal.ofBits .f32 0x00000000#32 + ∑ k : Fin 512, K k * K k)) (Ideal.ofBits .f32 0x2B8CBCCC#32)

/-- The clipped cosine of a feature row against a column. -/
def cosv (f K : Fin 512 → EReal) : EReal :=
  min (Ideal.ofBits .f32 0x3F7FFFFE#32)
    (max (Ideal.ofBits .f32 0xBF7FFFFE#32) (∑ k : Fin 512, f k * Ideal.div (K k) (colDen K)))

/-- The pre-margin logit. -/
def pre (f K : Fin 512 → EReal) : EReal := cosv f K * Ideal.ofBits .f32 0x42800000#32

/-- The one-hot entry: the comparison bit of the label word against the column's index word, as a number. -/
def hot (lab col : BitVec 32) : EReal := (((IntOp.cmpi .eq lab col).toNat : ℝ) : EReal)

/-- The margin-adjusted logit. -/
def logit (f K : Fin 512 → EReal) (lab col : BitVec 32) (mg : EReal) : EReal :=
  (cosv f K - hot lab col * mg) * Ideal.ofBits .f32 0x42800000#32

end Cert.Spec

end
-- ==== Proof.PayIdx.lean ====
/-
  The kernel body's three stored values, read at one entry of the 256 x 2048 tile, at the extended reals:
  entry (b, j) of the pre-margin tile, of the logit tile and of the one-hot tile depend on row b of the
  feature block, on COLUMN j ALONE of the class-matrix tile, on label b and on margin b.
-/
import proofs.«135469_j16200616640758_1_alg».proof.Proof.Gen.KernelIdeal.Skeleton
import proofs.«135469_j16200616640758_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.PayIdx

open Cert.KernelIdeal Cert.KernelIdeal.Gen Idealize.ShloMosaic Idealize.ShloMosaic.ValueIdx

/-- The column's sum of squares: the reduction over the row axis at column j is the sum over the 512 rows. -/
theorem sumsq_apply (x1 : Vec Ideal S512x2048 .f32) (hφ : FKind.Formats .f32)
    (hacc : (0x00000000#32 : BitVec 32) = FKind.add.neutral .f32 hφ) (j : Fin 2048) :
    multiReduction (F := Ideal) .add [0] S2048 (mulf x1 x1) 0x00000000#32 reduces_S512x2048_S2048 hφ hacc (ix1 j)
      = ∑ k : Fin 512, x1 (ix2 k j) * x1 (ix2 k j) := by
  refine (Ideal.multiReduction_add_single (mulf x1 x1) _ reduces_S512x2048_S2048 hφ hacc (ix1 j)).trans ?_
  refine Finset.sum_congr rfl fun k _ => ?_
  have e : reduces_S512x2048_S2048.lift (ix1 j) k = ix2 k j :=
    funext fun a => Fin.ext (by match a with | ⟨0, _⟩ => rfl | ⟨1, _⟩ => rfl)
  rw [e]; rfl

/-- The floored column norm at column j (the unit row axis carries no information). -/
theorem colnorm_apply (x1 : Vec Ideal S512x2048 .f32) (hφ : FKind.Formats .f32)
    (hacc : (0x00000000#32 : BitVec 32) = FKind.add.neutral .f32 hφ) (z : Fin 1) (j : Fin 2048) :
    (maximumf (sqrt (shapeCast S1x2048
        (multiReduction (F := Ideal) .add [0] S2048 (mulf x1 x1) 0x00000000#32 reduces_S512x2048_S2048 hφ hacc)
        shapeCasts_S2048_S1x2048))
      (broadcast S1x2048 (FloatOps.ofBits .f32 0x2B8CBCCC#32)) : FVec Ideal S1x2048 .f32) (ix2 z j)
      = Cert.Spec.colDen (fun k => x1 (ix2 k j)) := by
  unfold Cert.Spec.colDen
  rw [Ideal.ofBits_zero_f32, zero_add]
  show max (Ideal.sqrt (shapeCast S1x2048 _ shapeCasts_S2048_S1x2048 (ix2 z j))) _ = _
  have hz : z.val = 0 := by omega
  rw [shapeCast_apply _ shapeCasts_S2048_S1x2048 (ix2 z j) (ix1 j)
        (by rw [Shape.rowMajor_val_one, Shape.rowMajor_val_two]; show j.val = z.val * 2048 + j.val; omega),
      sumsq_apply]
  rfl

/-- The class-matrix tile divided by its columns' floored norms, at entry (k, j). -/
theorem normed_apply (x1 : Vec Ideal S512x2048 .f32) (hφ : FKind.Formats .f32)
    (hacc : (0x00000000#32 : BitVec 32) = FKind.add.neutral .f32 hφ) (k : Fin 512) (j : Fin 2048) :
    (divf x1 (broadcastTo S512x2048
      (maximumf (sqrt (shapeCast S1x2048
          (multiReduction (F := Ideal) .add [0] S2048 (mulf x1 x1) 0x00000000#32 reduces_S512x2048_S2048 hφ hacc)
          shapeCasts_S2048_S1x2048))
        (broadcast S1x2048 (FloatOps.ofBits .f32 0x2B8CBCCC#32)))
      broadcasts_S1x2048_S512x2048) : FVec Ideal S512x2048 .f32) (ix2 k j)
      = Ideal.div (x1 (ix2 k j)) (Cert.Spec.colDen (fun k' => x1 (ix2 k' j))) := by
  refine (divf_apply _ _ _).trans ?_
  refine congrArg (Ideal.div (x1 (ix2 k j))) ?_
  refine (broadcastTo_apply _ broadcasts_S1x2048_S512x2048 (ix2 k j) (ix2 (0 : Fin 1) j) (fun a => ?_)).trans
    (colnorm_apply x1 hφ hacc 0 j)
  match a with
  | ⟨0, _⟩ => rfl
  | ⟨1, _⟩ => rfl

/-- The product's left operand index at output (b, j) and contraction coordinate q: row b … -/
theorem dot_lhs_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl
/-- … and column q. -/
theorem dot_lhs_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
/-- The right operand index: row q … -/
theorem dot_rhs_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
/-- … and column j. -/
theorem dot_rhs_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- The clipped cosine tile at entry (b, j). -/
theorem pay1_apply (x1 : Vec Ideal S512x2048 .f32) (x0 : Vec Ideal S256x512 .f32) (b : Fin 256) (j : Fin 2048) :
    k0_pay1 (F := Ideal) x1 x0 (ix2 b j) = Cert.Spec.cosv (fun k => x0 (ix2 b k)) (fun k => x1 (ix2 k j)) := by
  unfold k0_pay1 Cert.Spec.cosv
  refine (minimumf_apply _ _ _).trans ?_
  refine congrArg (min (Ideal.ofBits .f32 0x3F7FFFFE#32)) ?_
  refine (maximumf_apply _ _ _).trans ?_
  refine congrArg (max (Ideal.ofBits .f32 0xBF7FFFFE#32)) ?_
  -- the product into the zero accumulator is the bare sum over the contraction index, re-indexed by the 512 rows
  refine (Ideal.matmul_constant_zero_apply dot_S256x512_S512x2048_S256x2048_1_0_0_1_n_n none _ _ (ix2 b j)).trans ?_
  rw [← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 b j)
      ((contrEquiv1 dot_S256x512_S512x2048_S256x2048_1_0_0_1_n_n 512 rfl rfl).symm k) = ix2 b k :=
    funext fun a => Fin.ext (by
      match a with
      | ⟨0, _⟩ => exact dot_lhs_0 _ _
      | ⟨1, _⟩ => exact (dot_lhs_1 _ _).trans hk)
  have er : dot_S256x512_S512x2048_S256x2048_1_0_0_1_n_n.rhsIdx (ix2 b j)
      ((contrEquiv1 dot_S256x512_S512x2048_S256x2048_1_0_0_1_n_n 512 rfl rfl).symm k) = ix2 k j :=
    funext fun a => Fin.ext (by
      match a with
      | ⟨0, _⟩ => exact (dot_rhs_0 _ _).trans hk
      | ⟨1, _⟩ => exact dot_rhs_1 _ _)
  rw [el, er]
  -- the format changes are the identity, the same-shape cast is the identity, and the right factor is the normed tile
  refine congrArg₂ (· * ·) ?_ ?_
  · show shapeCast S256x512 x0 shapeCasts_S256x512_S256x512 (ix2 b k) = x0 (ix2 b k)
    rw [shapeCast_self]
  · exact normed_apply x1 _ _ k j

/-- The label column broadcast along the tile's columns reads label b at every column. -/
theorem lab_apply (x2 : Vec Ideal S256x1 .i32) (b : Fin 256) (j : Fin 2048) :
    broadcastTo S256x2048 (shapeCast S256x1 x2 shapeCasts_S256x1_S256x1) broadcasts_S256x1_S256x2048 (ix2 b j)
      = x2 (ix2 b 0) := by
  rw [shapeCast_self]
  refine broadcastTo_apply _ broadcasts_S256x1_S256x2048 (ix2 b j) (ix2 b (0 : Fin 1)) (fun a => ?_)
  match a with
  | ⟨0, _⟩ => rfl
  | ⟨1, _⟩ => rfl

/-- Words of 32 bits: the word of n times the word 2048, plus the word of j, is the word of n * 2048 + j
    (the naturals' words form a ring image, so no bound on n is needed). -/
theorem word_mul_add (n j : Nat) :
    IntOp.addi (IntOp.muli (BitVec.ofNat 32 n) 2048#32) (BitVec.ofNat 32 j) = BitVec.ofNat 32 (n * 2048 + j) := by
  unfold IntOp.addi IntOp.muli
  apply BitVec.eq_of_toNat_eq
  simp only [BitVec.toNat_add, BitVec.toNat_mul, BitVec.toNat_ofNat]
  omega

/-- The column index row, the tile's first column plus the position in the tile, broadcast along the rows. -/
theorem col_apply (n : Nat) (b : Fin 256) (j : Fin 2048) :
    broadcastTo S256x2048
      (addi (broadcast S1x2048 (Scalar.muli (BitVec.ofNat 32 n) 2048#32))
        (iota Kind.tc S1x2048 32 [1] iota_S1x2048_d1_w32))
      broadcasts_S1x2048_S256x2048 (ix2 b j) = BitVec.ofNat 32 (n * 2048 + j.val) := by
  refine (broadcastTo_apply _ broadcasts_S1x2048_S256x2048 (ix2 b j) (ix2 (0 : Fin 1) j) (fun a => ?_)).trans ?_
  · match a with
    | ⟨0, _⟩ => rfl
    | ⟨1, _⟩ => rfl
  · show IntOp.addi (IntOp.muli (BitVec.ofNat 32 n) 2048#32)
        (iota Kind.tc S1x2048 32 [1] iota_S1x2048_d1_w32 (ix2 (0 : Fin 1) j)) = _
    rw [iota_single_apply]
    exact word_mul_add n j.val

/-- The one-hot tile at entry (b, j): label b against the column's global index, the tile's number times 2048 plus j. -/
theorem pay2_apply (i : grid0.Coords) (x2 : Vec Ideal S256x1 .i32) (b : Fin 256) (j : Fin 2048) :
    k0_pay2 (F := Ideal) i x2 (ix2 b j)
      = Cert.Spec.hot (x2 (ix2 b 0)) (BitVec.ofNat 32 ((i 0).val * 2048 + j.val)) := by
  unfold k0_pay2 Cert.Spec.hot
  -- a bit widened to a word and read signed is the bit read unsigned
  show ((((IntOp.cmpi .eq
      (broadcastTo S256x2048 (shapeCast S256x1 x2 shapeCasts_S256x1_S256x1) broadcasts_S256x1_S256x2048 (ix2 b j))
      (broadcastTo S256x2048
        (addi (broadcast S1x2048 (Scalar.muli (BitVec.ofNat 32 (i 0).val) 2048#32))
          (iota Kind.tc S1x2048 32 [1] iota_S1x2048_d1_w32))
        broadcasts_S1x2048_S256x2048 (ix2 b j))).setWidth 32).toInt : ℝ) : EReal) = _
  rw [lab_apply, col_apply, toInt_setWidth_bit]
  norm_cast

/-- The pre-margin tile at entry (b, j). -/
theorem pay3_apply (x1 : Vec Ideal S512x2048 .f32) (x0 : Vec Ideal S256x512 .f32) (b : Fin 256) (j : Fin 2048) :
    k0_pay3 (F := Ideal) x1 x0 (ix2 b j) = Cert.Spec.pre (fun k => x0 (ix2 b k)) (fun k => x1 (ix2 k j)) := by
  unfold k0_pay3 Cert.Spec.pre
  refine (mulf_apply _ _ _).trans ?_
  rw [pay1_apply]
  rfl

/-- The margin column broadcast along the tile's columns reads margin b at every column. -/
theorem margin_apply (x3 : Vec Ideal S256x1 .f32) (b : Fin 256) (j : Fin 2048) :
    broadcastTo S256x2048 (shapeCast S256x1 x3 shapeCasts_S256x1_S256x1) broadcasts_S256x1_S256x2048 (ix2 b j)
      = x3 (ix2 b 0) := by
  rw [shapeCast_self]
  refine broadcastTo_apply _ broadcasts_S256x1_S256x2048 (ix2 b j) (ix2 b (0 : Fin 1)) (fun a => ?_)
  match a with
  | ⟨0, _⟩ => rfl
  | ⟨1, _⟩ => rfl

/-- The logit tile at entry (b, j). -/
theorem pay4_apply (i : grid0.Coords) (x1 : Vec Ideal S512x2048 .f32) (x0 : Vec Ideal S256x512 .f32)
    (x2 : Vec Ideal S256x1 .i32) (x3 : Vec Ideal S256x1 .f32) (b : Fin 256) (j : Fin 2048) :
    k0_pay4 (F := Ideal) i x1 x0 x2 x3 (ix2 b j)
      = Cert.Spec.logit (fun k => x0 (ix2 b k)) (fun k => x1 (ix2 k j)) (x2 (ix2 b 0))
          (BitVec.ofNat 32 ((i 0).val * 2048 + j.val)) (x3 (ix2 b 0)) := by
  unfold k0_pay4 Cert.Spec.logit
  refine (mulf_apply _ _ _).trans ?_
  refine congrArg (· * Ideal.ofBits .f32 0x42800000#32) ?_
  refine (subf_apply _ _ _).trans ?_
  rw [pay1_apply]
  refine congrArg (Cert.Spec.cosv (fun k => x0 (ix2 b k)) (fun k => x1 (ix2 k j)) - ·) ?_
  refine (mulf_apply _ _ _).trans ?_
  rw [pay2_apply, margin_apply]

end Cert.KernelIdeal.PayIdx

end
-- ==== Proof.IFrame.lean ====
/-
  The idealized kernel's run, with every output array named.

  The class matrix K (512 x 100000) is staged 2048 columns at a time over 49 grid points; the last tile
  overhangs the matrix by 352 columns, and a cut fetch leaves words nothing names in the staging buffer's tail.
  Each of the body's three stored tiles, at column j, depends on column j of the staged tile alone (the sum of
  squares runs down a column, the matrix product contracts the 512 rows, never the columns). So two staged tiles
  that agree on the columns inside the matrix give the same stored values on those columns, and those are the only
  columns a cut write-back moves. The proof data name each staging buffer after the body on exactly that part:
  the staged tile filled out with zeros, and the body's three stores of it.
-/
import proofs.«135469_j16200616640758_1_alg».proof.Proof.Body
import proofs.«135469_j16200616640758_1_alg».proof.Proof.PayIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The class-matrix tile at point `t`: its columns inside the matrix, zeros past the matrix's last column. -/
def ktile (c : Dev nD) (t : Fin cfg0.N) : Vec Ideal S512x2048 .f32 :=
  win0_1.fill (grid0.coords t) (fun _ => (0 : EReal)) (iblk m c 1 t)

/-- After the body at point `t`: the four inputs' buffers at their blocks (the class matrix's filled out with zeros),
    the three outputs' at the body's stores of those. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => ktile m c t
    | ⟨2, _⟩ => iblk m c 2 t
    | ⟨3, _⟩ => iblk m c 3 t
    | ⟨4, _⟩ => k0_pay3 (F := Ideal) (ktile m c t) (iblk m c 0 t)
    | ⟨5, _⟩ => k0_pay4 (F := Ideal) (grid0.coords t) (ktile m c t) (iblk m c 0 t) (iblk m c 2 t) (iblk m c 3 t)
    | ⟨6, _⟩ => k0_pay2 (F := Ideal) (grid0.coords t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = ktile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay3 (F := Ideal) (ktile m c t) (iblk m c 0 t) := by dsimp only [dats]
theorem after0_5 (c : Dev nD) (t : Fin cfg0.N) :
    (dats m 0 c).after 5 t = k0_pay4 (F := Ideal) (grid0.coords t) (ktile m c t) (iblk m c 0 t) (iblk m c 2 t) (iblk m c 3 t) := by
  dsimp only [dats]
theorem after0_6 (c : Dev nD) (t : Fin cfg0.N) :
    (dats m 0 c).after 6 t = k0_pay2 (F := Ideal) (grid0.coords t) (iblk m c 2 t) := by dsimp only [dats]

/-- The three resident inputs' buffers hold their blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The class matrix's buffer is fetched at every point: its tile on the columns inside the matrix, `d` past them. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-! ## The parts a cut transfer moves -/

/-- At every point: the class-matrix tile keeps all 512 rows, and is cut to the same columns as the three outputs;
    the outputs keep all 256 rows. -/
theorem xsizes : ∀ t : Fin cfg0.N,
    win0_1.xsize (grid0.coords t) 0 = 512
    ∧ win0_1.xsize (grid0.coords t) 1 = win0_4.xsize (grid0.coords t) 1
    ∧ win0_5.xsize (grid0.coords t) 1 = win0_4.xsize (grid0.coords t) 1
    ∧ win0_6.xsize (grid0.coords t) 1 = win0_4.xsize (grid0.coords t) 1 :=
  (by decide +kernel : ∀ t : Fin grid0.N, _)

/-- Two staged tiles that agree on the columns inside the matrix have the same column `j`, for `j` such a column. -/
theorem col_congr (t : Fin cfg0.N) {X X' : Vec Ideal S512x2048 .f32}
    (h : win0_1.cut (grid0.coords t) X = win0_1.cut (grid0.coords t) X') (j : Fin 2048)
    (hj : j.val < win0_4.xsize (grid0.coords t) 1) :
    (fun k : Fin 512 => X (ix2 k j)) = fun k : Fin 512 => X' (ix2 k j) := by
  funext k
  have hs := xsizes t
  let y' : (win0_1.xblock (grid0.coords t)).Idx := fun a => match a with
    | ⟨0, _⟩ => ⟨k.val, lt_of_lt_of_eq k.isLt hs.1.symm⟩
    | ⟨1, _⟩ => ⟨j.val, lt_of_lt_of_eq hj hs.2.1.symm⟩
  have e : win0_1.xinj (grid0.coords t) y' = ix2 k j :=
    funext fun a => Fin.ext (by match a with | ⟨0, _⟩ => rfl | ⟨1, _⟩ => rfl)
  have := congrFun h y'
  change X (win0_1.xinj (grid0.coords t) y') = X' (win0_1.xinj (grid0.coords t) y') at this
  rwa [e] at this

/-- An index of an output tile's moved part, by its coordinates. -/
theorem xinj4 (t : Fin cfg0.N) (y : (win0_4.xblock (grid0.coords t)).Idx) :
    win0_4.xinj (grid0.coords t) y
      = ix2 (n0 := 256) (n1 := 2048) ⟨(y 0).val, lt_of_lt_of_le (y 0).isLt (win0_4.xsize_le (grid0.coords t) 0)⟩
          ⟨(y 1).val, lt_of_lt_of_le (y 1).isLt (win0_4.xsize_le (grid0.coords t) 1)⟩ :=
  funext fun a => Fin.ext (by match a with | ⟨0, _⟩ => rfl | ⟨1, _⟩ => rfl)
theorem xinj5 (t : Fin cfg0.N) (y : (win0_5.xblock (grid0.coords t)).Idx) :
    win0_5.xinj (grid0.coords t) y
      = ix2 (n0 := 256) (n1 := 2048) ⟨(y 0).val, lt_of_lt_of_le (y 0).isLt (win0_5.xsize_le (grid0.coords t) 0)⟩
          ⟨(y 1).val, lt_of_lt_of_le (y 1).isLt (win0_5.xsize_le (grid0.coords t) 1)⟩ :=
  funext fun a => Fin.ext (by match a with | ⟨0, _⟩ => rfl | ⟨1, _⟩ => rfl)

/-- The pre-margin tile's moved part depends on the staged class-matrix tile through its moved part only. -/
theorem cut_pay3_congr (t : Fin cfg0.N) {X X' : Vec Ideal S512x2048 .f32}
    (h : win0_1.cut (grid0.coords t) X = win0_1.cut (grid0.coords t) X') (x0 : Vec Ideal S256x512 .f32) :
    win0_4.cut (grid0.coords t) (k0_pay3 (F := Ideal) X x0) = win0_4.cut (grid0.coords t) (k0_pay3 (F := Ideal) X' x0) := by
  funext y
  show k0_pay3 (F := Ideal) X x0 (win0_4.xinj (grid0.coords t) y) = k0_pay3 (F := Ideal) X' x0 (win0_4.xinj (grid0.coords t) y)
  rw [xinj4 t y, PayIdx.pay3_apply, PayIdx.pay3_apply, col_congr t h _ (y 1).isLt]

/-- So does the logit tile's. -/
theorem cut_pay4_congr (t : Fin cfg0.N) {X X' : Vec Ideal S512x2048 .f32}
    (h : win0_1.cut (grid0.coords t) X = win0_1.cut (grid0.coords t) X') (x0 : Vec Ideal S256x512 .f32)
    (x2 : Vec Ideal S256x1 .i32) (x3 : Vec Ideal S256x1 .f32) :
    win0_5.cut (grid0.coords t) (k0_pay4 (F := Ideal) (grid0.coords t) X x0 x2 x3)
      = win0_5.cut (grid0.coords t) (k0_pay4 (F := Ideal) (grid0.coords t) X' x0 x2 x3) := by
  funext y
  show k0_pay4 (F := Ideal) (grid0.coords t) X x0 x2 x3 (win0_5.xinj (grid0.coords t) y)
    = k0_pay4 (F := Ideal) (grid0.coords t) X' x0 x2 x3 (win0_5.xinj (grid0.coords t) y)
  rw [xinj5 t y, PayIdx.pay4_apply, PayIdx.pay4_apply,
    col_congr t h _ (lt_of_lt_of_eq (y 1).isLt (xsizes t).2.2.1)]

/-! ## The body obligation -/

/-- The body at point `t`: handed the resident blocks and the class-matrix tile filled out with anything past the
    matrix's last column, it leaves the inputs as they were and each output at its store — which on the columns a
    write-back moves is the store of the tile filled out with zeros. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare (win0_1.fill (grid0.coords t) d (win0_1.cut (grid0.coords t) ((dats m 0 c).after 1 t))))
            ∗ owns (c : Thread nD τ) (st0_2 t) fullShare ((dats m 0 c).after 2 t)
            ∗ owns (c : Thread nD τ) (st0_3 t) fullShare ((dats m 0 c).after 3 t)
            ∗ (∃ d, owns (c : Thread nD τ) (st0_4 t) fullShare (win0_4.fill (grid0.coords t) d (win0_4.cut (grid0.coords t) ((dats m 0 c).after 4 t))))
            ∗ (∃ d, owns (c : Thread nD τ) (st0_5 t) fullShare (win0_5.fill (grid0.coords t) d (win0_5.cut (grid0.coords t) ((dats m 0 c).after 5 t))))
            ∗ (∃ d, owns (c : Thread nD τ) (st0_6 t) fullShare (win0_6.fill (grid0.coords t) d (win0_6.cut (grid0.coords t) ((dats m 0 c).after 6 t)))))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (iblk m c 0 t) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  -- the staged tile and the zero-filled one agree on the columns inside the matrix
  have hk : win0_1.cut (grid0.coords t) (win0_1.fill (grid0.coords t) d1 (iblk m c 1 t))
      = win0_1.cut (grid0.coords t) (ktile m c t) := by
    unfold ktile; rw [win0_1.cut_fill, win0_1.cut_fill]
  isplitl [HΦ]; · iexact HΦ
  isplitl [Ho]; · iexact Ho
  isplitl [H0]; · iexact H0
  isplitl [H1]
  · iexists d1
    rw [show win0_1.cut (grid0.coords t) (ktile m c t) = iblk m c 1 t from win0_1.cut_fill _ _ _]
    iexact H1
  isplitl [H2]; · iexact H2
  isplitl [H3]; · iexact H3
  isplitl [H4]
  · iexists k0_pay3 (F := Ideal) (win0_1.fill (grid0.coords t) d1 (iblk m c 1 t)) (iblk m c 0 t)
    rw [win0_4.fill_congr_cut (grid0.coords t) (cut_pay3_congr t hk (iblk m c 0 t))]
    iexact H4
  isplitl [H5]
  · iexists k0_pay4 (F := Ideal) (grid0.coords t) (win0_1.fill (grid0.coords t) d1 (iblk m c 1 t)) (iblk m c 0 t) (iblk m c 2 t) (iblk m c 3 t)
    rw [win0_5.fill_congr_cut (grid0.coords t) (cut_pay4_congr t hk (iblk m c 0 t) (iblk m c 2 t) (iblk m c 3 t))]
    iexact H5
  · iexists k0_pay2 (F := Ideal) (grid0.coords t) (iblk m c 2 t)
    rw [win0_6.fill_cut]
    iexact H6

/-- The library's loose body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; each array of the region ends at what the write-backs make of the
    proof data, every other unscoped buffer at what it held when the region was entered. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame: the argument arrays end as they were launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Run

end
-- ==== Proof.RefIdx.lean ====
/-
  The reference's three large results, read at one entry (b, c) of the 256 x 100000 arrays, at the extended
  reals: each depends on row b of the normalised features (the reference's own stage, kept as it is named),
  on COLUMN c ALONE of the class matrix, on label b and on the clipped margin b.
-/
import proofs.«135469_j16200616640758_1_alg».proof.Proof.Gen.ReferenceIdeal.Read
import proofs.«135469_j16200616640758_1_alg».proof.Proof.Spec
import Idealize.ShloMosaic.Lib.ValueIdx
import Idealize.ShloMosaic.Lib.Pipeline.Value
import Idealize.ShloMosaic.PureOps.Ideal.Laws

noncomputable section

namespace Cert.ReferenceIdeal.RefIdx

open Cert.ReferenceIdeal Cert.ReferenceIdeal.Gen Cert.ReferenceIdeal.Read Idealize.ShloMosaic Idealize.ShloMosaic.ValueIdx

/-- The column-normalised class matrix at entry (k, c): the entry over the floored norm of column c. The
    norm's sum runs over the first axis, so only column c enters. -/
private theorem v9_apply (x1 : (⟨S512x100000, .f32⟩ : BufTy).Contents (Elt Ideal)) (k : Fin 512) (c : Fin 100000) :
    val_main_v9 (F := Ideal) x1 (ix2 k c)
      = Ideal.div (x1 (ix2 k c)) (Cert.Spec.colDen fun k' => x1 (ix2 k' c)) := by
  rw [val_main_v9_apply, val_main_v8_apply, val_main_v7_apply, val_main_v5_apply, val_main_call1_v2_apply,
    val_main_call1_v1_apply, val_main_v6_apply, val_main_cst_0_apply, val_main_call1_cst_apply]
  have e : ∀ k' : Fin 512, idx_main_call1_v1 (idx_main_call1_v2 (idx_main_v8 (ix2 k c))) k' = ix2 k' c :=
    fun k' => funext fun a => Fin.ext (by match a with | ⟨0, _⟩ => rfl | ⟨1, _⟩ => rfl)
  simp only [val_main_call1_v0_apply, e]
  rfl

/-- The clipped cosine at entry (b, c): the contraction pairs row b of the normalised features with
    column c of the normalised class matrix. -/
private theorem v11_apply (x0 : (⟨S256x512, .f32⟩ : BufTy).Contents (Elt Ideal)) (x1 : (⟨S512x100000, .f32⟩ : BufTy).Contents (Elt Ideal))
    (b : Fin 256) (c : Fin 100000) :
    val_main_v11 (F := Ideal) x0 x1 (ix2 b c)
      = Cert.Spec.cosv (fun k => val_main_v4 (F := Ideal) x0 (ix2 b k)) (fun k => x1 (ix2 k c)) := by
  rw [val_main_v11_apply, val_main_call2_v4_apply, val_main_call2_v3_apply, val_main_cst_2_apply,
    val_main_call2_v2_apply, val_main_call2_v1_apply, val_main_call2_v0_apply, val_main_cst_1_apply,
    val_main_v10_apply]
  have el : ∀ k : Fin 512, lidx_main_v10 (ix2 b c) k = ix2 b k :=
    fun k => funext fun a => Fin.ext (by match a with | ⟨0, _⟩ => rfl | ⟨1, _⟩ => rfl)
  have er : ∀ k : Fin 512, ridx_main_v10 (ix2 b c) k = ix2 k c :=
    fun k => funext fun a => Fin.ext (by match a with | ⟨0, _⟩ => rfl | ⟨1, _⟩ => rfl)
  simp only [el, er, v9_apply]
  rfl

/-- The pre-margin logits at entry (b, c). -/
theorem v19_apply (x0 : (⟨S256x512, .f32⟩ : BufTy).Contents (Elt Ideal)) (x1 : (⟨S512x100000, .f32⟩ : BufTy).Contents (Elt Ideal))
    (b : Fin 256) (c : Fin 100000) :
    val_main_v19 (F := Ideal) x0 x1 (ix2 b c)
      = Cert.Spec.pre (fun k => val_main_v4 (F := Ideal) x0 (ix2 b k)) (fun k => x1 (ix2 k c)) := by
  rw [val_main_v19_apply, val_main_v18_apply, val_main_cst_7_apply, v11_apply]
  rfl

/-- The one-hot array at entry (b, c). -/
theorem v17_apply (x3 : (⟨S256, .i32⟩ : BufTy).Contents (Elt Ideal)) (b : Fin 256) (c : Fin 100000) :
    val_main_v17 (F := Ideal) x3 (ix2 b c) = Cert.Spec.hot (x3 (ix1 b)) (BitVec.ofNat 32 c.val) := by
  rw [val_main_v17_apply, val_main_call4_v4_apply, val_main_call4_v2_apply, val_main_call4_v0_apply,
    val_main_call4_v3_apply, val_main_call4_v1_apply]
  have e : idx_main_call4_v0 (idx_main_call4_v2 (ix2 b c)) = ix1 b :=
    funext fun a => Fin.ext (by match a with | ⟨0, _⟩ => rfl)
  rw [e]
  rfl

/-- The logits at entry (b, c). -/
theorem v24_apply (x0 : (⟨S256x512, .f32⟩ : BufTy).Contents (Elt Ideal)) (x1 : (⟨S512x100000, .f32⟩ : BufTy).Contents (Elt Ideal))
    (x2 : (⟨S256x1, .f32⟩ : BufTy).Contents (Elt Ideal)) (x3 : (⟨S256, .i32⟩ : BufTy).Contents (Elt Ideal))
    (b : Fin 256) (c : Fin 100000) :
    val_main_v24 (F := Ideal) x0 x1 x2 x3 (ix2 b c)
      = Cert.Spec.logit (fun k => val_main_v4 (F := Ideal) x0 (ix2 b k)) (fun k => x1 (ix2 k c)) (x3 (ix1 b))
          (BitVec.ofNat 32 c.val) (val_main_v16 (F := Ideal) x2 (ix2 b 0)) := by
  rw [val_main_v24_apply, val_main_v23_apply, val_main_cst_8_apply, val_main_v22_apply, val_main_v21_apply,
    val_main_v20_apply, v11_apply, v17_apply]
  have e : idx_main_v20 (ix2 b c) = ix2 b 0 :=
    funext fun a => Fin.ext (by match a with | ⟨0, _⟩ => rfl | ⟨1, _⟩ => rfl)
  rw [e]
  rfl

end Cert.ReferenceIdeal.RefIdx

end
-- ==== Proof.IValue.lean ====
/-
  The idealized kernel's four results after the run, as whole-array functions of the arguments — the very
  functions the reference's run ends at.

  Tile `t` of each 256 x 100000 output, on its columns inside the array, is what point `t` writes back; column
  `j` of the tile is column `2048 t + j` of the array, and by the entry-wise readings of the body's stores and
  of the reference's stages both are the same formula of row b of the normalised features, column 2048 t + j of
  the class matrix, label b and margin b. The 49 tiles cover all 100000 columns (the last one, cut, ends at
  column 99999), so each output array is the reference's stage everywhere. The norms are a host operation's
  result that the region never touches.
-/
import proofs.«135469_j16200616640758_1_alg».proof.Proof.IFrame
import proofs.«135469_j16200616640758_1_alg».proof.Proof.RefIdx
import Idealize.ShloMosaic.Lib.StableHlo.Run

set_option maxRecDepth 16384

noncomputable section

namespace Cert.KernelIdeal.Arrays

open Cert.KernelIdeal Cert.KernelIdeal.Gen Cert.KernelIdeal.Run
open Cert.ReferenceIdeal.Read (val_main_v0 val_main_v4 val_main_v16 val_main_v17 val_main_v19 val_main_v24)
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## What the host operations before the region leave -/

/-- The normalised features the region stages are the reference's stage of the same name. -/
theorem V_v4 (c : Dev nD) :
    (V m c main_v4 : S256x512.Idx → EReal) = val_main_v4 (F := Ideal) (m ((c : Thread nD τ).loc main_arg0)) := by
  dsimp only [V]
  simp only [hostOps0, hostOps0_1, hostOps0_2, hostOps0_3, List.flatten_cons, List.flatten_nil, List.append_nil, List.cons_append,
    List.nil_append]
  after_results
  rfl

/-- The clipped margins likewise. -/
theorem V_v9 (c : Dev nD) :
    (V m c main_v9 : S256x1.Idx → EReal) = val_main_v16 (F := Ideal) (m ((c : Thread nD τ).loc main_arg2)) := by
  dsimp only [V]
  simp only [hostOps0, hostOps0_1, hostOps0_2, hostOps0_3, List.flatten_cons, List.flatten_nil, List.append_nil, List.cons_append,
    List.nil_append]
  after_results
  rfl

/-- The norms (the third result) likewise. -/
theorem V_v0 (c : Dev nD) :
    (V m c main_v0 : S256x1.Idx → EReal) = val_main_v0 (F := Ideal) (m ((c : Thread nD τ).loc main_arg0)) := by
  dsimp only [V]
  simp only [hostOps0, hostOps0_1, hostOps0_2, hostOps0_3, List.flatten_cons, List.flatten_nil, List.append_nil, List.cons_append,
    List.nil_append]
  after_results
  rfl

/-- The labels, reshaped to a column: entry (b, 0) is label b. -/
theorem V_v10 (c : Dev nD) (b : Fin 256) :
    (V m c main_v10 : S256x1.Idx → BitVec 32) (ix2 b 0) = (m ((c : Thread nD τ).loc main_arg3) : S256.Idx → BitVec 32) (ix1 b) := by
  have e : (V m c main_v10 : S256x1.Idx → BitVec 32)
      = shapeCast S256x1 (m ((c : Thread nD τ).loc main_arg3) : S256.Idx → BitVec 32) shapeCasts_S256_S256x1 := by
    dsimp only [V]
    simp only [hostOps0, hostOps0_1, hostOps0_2, hostOps0_3, List.flatten_cons, List.flatten_nil, List.append_nil, List.cons_append,
      List.nil_append]
    after_results
    rfl
  rw [e]
  exact shapeCast_apply _ _ (ix2 b 0) (ix1 b) (by rw [Shape.rowMajor_val_one, Shape.rowMajor_val_two]; show b.val = b.val * 1 + 0; omega)

/-! ## The printed index maps and cuts, decided over the grid -/

/-- The resident windows sit at block (0, 0); the class matrix's and the three outputs' tile at point `t` is tile `t`
    along the columns; the outputs keep all 256 rows; every tile but the last keeps its 2048 columns and the last, tile
    48, keeps 1696: up to column 99999. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_4.xsize (grid0.coords t) (0 : Fin 2) = 256
    ∧ win0_5.xsize (grid0.coords t) (0 : Fin 2) = 256
    ∧ win0_6.xsize (grid0.coords t) (0 : Fin 2) = 256
    ∧ (t.val < 48 → win0_4.xsize (grid0.coords t) (1 : Fin 2) = 2048)
    ∧ (t.val = 48 → win0_4.xsize (grid0.coords t) (1 : Fin 2) = 1696) :=
  (by decide +kernel : ∀ t : Fin grid0.N, _)

theorem t_lt (t : Fin cfg0.N) : t.val < 49 := lt_of_lt_of_eq t.isLt N_0

/-- A column inside tile `t`'s moved part is a column of the array. -/
theorem col_lt (t : Fin cfg0.N) {j : Nat} (hj : j < win0_4.xsize (grid0.coords t) (1 : Fin 2)) : t.val * 2048 + j < 100000 := by
  obtain ⟨-, -, -, -, -, -, -, -, -, -, -, -, -, -, -, -, -, h1, h2⟩ := idx_facts t
  have := t_lt t
  by_cases h : t.val < 48
  · have := h1 h; omega
  · have := h2 (by omega); omega

/-! ## The staged inputs, entry by entry -/

/-- Row `b` of the staged features is row `b` of the reference's normalised features. -/
theorem feat_row (c : Dev nD) (t : Fin cfg0.N) (b : Fin 256) (k : Fin 512) :
    (iblk m c 0 t : S256x512.Idx → EReal) (ix2 b k) = val_main_v4 (F := Ideal) (m ((c : Thread nD τ).loc main_arg0)) (ix2 b k) := by
  obtain ⟨e0, e1, -⟩ := idx_facts t
  refine Eq.trans ?_ (congrFun (V_v4 m c) (ix2 b k))
  show V m c main_v4 (((cfg0.win 0).blk t).view.emb (ix2 b k)) = V m c main_v4 (ix2 b k)
  have h0 : ((cfg0.win 0).blk t).view.emb (ix2 b k) = ix2 b k := by
    funext a; apply Fin.ext
    match a with
    | ⟨0, _⟩ => show win0_0.index t (0 : Fin 2) * 256 + 1 * b.val = b.val; omega
    | ⟨1, _⟩ => show win0_0.index t (1 : Fin 2) * 512 + 1 * k.val = k.val; omega
  rw [h0]

/-- Label `b` as staged is label `b`. -/
theorem lab_row (c : Dev nD) (t : Fin cfg0.N) (b : Fin 256) :
    (iblk m c 2 t : S256x1.Idx → BitVec 32) (ix2 b 0) = ((m ((c : Thread nD τ).loc main_arg3)) : S256.Idx → BitVec 32) (ix1 b) := by
  obtain ⟨-, -, -, -, e0, e1, -⟩ := idx_facts t
  refine Eq.trans ?_ (V_v10 m c b)
  show V m c main_v10 (((cfg0.win 2).blk t).view.emb (ix2 b 0)) = V m c main_v10 (ix2 b 0)
  have h0 : ((cfg0.win 2).blk t).view.emb (ix2 b (0 : Fin 1)) = ix2 b 0 := by
    funext a; apply Fin.ext
    match a with
    | ⟨0, _⟩ => show win0_2.index t (0 : Fin 2) * 256 + 1 * b.val = b.val; omega
    | ⟨1, _⟩ => show win0_2.index t (1 : Fin 2) * 1 + 1 * 0 = 0; omega
  rw [h0]

/-- Margin `b` as staged is the reference's clipped margin `b`. -/
theorem marg_row (c : Dev nD) (t : Fin cfg0.N) (b : Fin 256) :
    (iblk m c 3 t : S256x1.Idx → EReal) (ix2 b 0) = val_main_v16 (F := Ideal) (m ((c : Thread nD τ).loc main_arg2)) (ix2 b 0) := by
  obtain ⟨-, -, -, -, -, -, e0, e1, -⟩ := idx_facts t
  refine Eq.trans ?_ (congrFun (V_v9 m c) (ix2 b 0))
  show V m c main_v9 (((cfg0.win 3).blk t).view.emb (ix2 b 0)) = V m c main_v9 (ix2 b 0)
  have h0 : ((cfg0.win 3).blk t).view.emb (ix2 b (0 : Fin 1)) = ix2 b 0 := by
    funext a; apply Fin.ext
    match a with
    | ⟨0, _⟩ => show win0_3.index t (0 : Fin 2) * 256 + 1 * b.val = b.val; omega
    | ⟨1, _⟩ => show win0_3.index t (1 : Fin 2) * 1 + 1 * 0 = 0; omega
  rw [h0]

/-- Column `j` of the staged class-matrix tile at point `t`, for `j` inside the matrix, is column `2048 t + j` of the matrix. -/
theorem ktile_col (c : Dev nD) (t : Fin cfg0.N) (k : Fin 512) (j : Fin 2048)
    (hj : j.val < win0_4.xsize (grid0.coords t) (1 : Fin 2)) :
    ktile m c t (ix2 k j) = ((m ((c : Thread nD τ).loc main_arg1)) : S512x100000.Idx → EReal) (ix2 k ⟨t.val * 2048 + j.val, col_lt t hj⟩) := by
  have hs := xsizes t
  obtain ⟨-, -, e2, e3, -⟩ := idx_facts t
  let y' : (win0_1.xblock (grid0.coords t)).Idx := fun a => match a with
    | ⟨0, _⟩ => ⟨k.val, lt_of_lt_of_eq k.isLt hs.1.symm⟩
    | ⟨1, _⟩ => ⟨j.val, lt_of_lt_of_eq hj hs.2.1.symm⟩
  have e : ix2 k j = win0_1.xinj (grid0.coords t) y' :=
    funext fun a => Fin.ext (by match a with | ⟨0, _⟩ => rfl | ⟨1, _⟩ => rfl)
  unfold ktile
  rw [e, win0_1.fill_xinj]
  show V m c main_arg1 (((cfg0.win 1).blk t).view.emb y') = _
  rw [V_main_arg1]
  have h0 : ((cfg0.win 1).blk t).view.emb y' = ix2 k ⟨t.val * 2048 + j.val, col_lt t hj⟩ := by
    funext a; apply Fin.ext
    match a with
    | ⟨0, _⟩ => show win0_1.index t (0 : Fin 2) * 512 + 1 * k.val = k.val; omega
    | ⟨1, _⟩ => show win0_1.index t (1 : Fin 2) * 2048 + 1 * j.val = t.val * 2048 + j.val; omega
  rw [h0]

/-! ## The target arrays -/

/-- The reference's pre-margin logits, its logits and its one-hot array, of the kernel's arguments. -/
def G4 (c : Dev nD) : S256x100000.Idx → EReal := val_main_v19 (F := Ideal) (m ((c : Thread nD τ).loc main_arg0)) (m ((c : Thread nD τ).loc main_arg1))
def G5 (c : Dev nD) : S256x100000.Idx → EReal := val_main_v24 (F := Ideal) (m ((c : Thread nD τ).loc main_arg0)) (m ((c : Thread nD τ).loc main_arg1)) (m ((c : Thread nD τ).loc main_arg2)) (m ((c : Thread nD τ).loc main_arg3))
def G6 (c : Dev nD) : S256x100000.Idx → EReal := val_main_v17 (F := Ideal) (m ((c : Thread nD τ).loc main_arg3))

theorem G4_apply (c : Dev nD) (b : Fin 256) (q : Fin 100000) :
    G4 m c (ix2 b q) = Cert.Spec.pre (fun k => val_main_v4 (F := Ideal) (m ((c : Thread nD τ).loc main_arg0)) (ix2 b k)) (fun k => ((m ((c : Thread nD τ).loc main_arg1)) : S512x100000.Idx → EReal) (ix2 k q)) :=
  Cert.ReferenceIdeal.RefIdx.v19_apply _ _ b q
theorem G5_apply (c : Dev nD) (b : Fin 256) (q : Fin 100000) :
    G5 m c (ix2 b q) = Cert.Spec.logit (fun k => val_main_v4 (F := Ideal) (m ((c : Thread nD τ).loc main_arg0)) (ix2 b k)) (fun k => ((m ((c : Thread nD τ).loc main_arg1)) : S512x100000.Idx → EReal) (ix2 k q))
      (((m ((c : Thread nD τ).loc main_arg3)) : S256.Idx → BitVec 32) (ix1 b)) (BitVec.ofNat 32 q.val) (val_main_v16 (F := Ideal) (m ((c : Thread nD τ).loc main_arg2)) (ix2 b 0)) :=
  Cert.ReferenceIdeal.RefIdx.v24_apply _ _ _ _ b q
theorem G6_apply (c : Dev nD) (b : Fin 256) (q : Fin 100000) :
    G6 m c (ix2 b q) = Cert.Spec.hot (((m ((c : Thread nD τ).loc main_arg3)) : S256.Idx → BitVec 32) (ix1 b)) (BitVec.ofNat 32 q.val) :=
  Cert.ReferenceIdeal.RefIdx.v17_apply _ b q

/-! ## What each point writes back -/

/-- The pre-margin tile at an entry of its moved part, from the feature row and the class-matrix column there. -/
theorem pay3_at (t : Fin cfg0.N) (y : (win0_4.xblock (grid0.coords t)).Idx) (K : Vec Ideal S512x2048 .f32)
    (x0 : Vec Ideal S256x512 .f32) (f g : Fin 512 → EReal)
    (hf : ∀ k, x0 (ix2 ⟨(y 0).val, lt_of_lt_of_le (y 0).isLt (win0_4.xsize_le (grid0.coords t) 0)⟩ k) = f k)
    (hg : ∀ k, K (ix2 k ⟨(y 1).val, lt_of_lt_of_le (y 1).isLt (win0_4.xsize_le (grid0.coords t) 1)⟩) = g k) :
    k0_pay3 (F := Ideal) K x0 (win0_4.xinj (grid0.coords t) y) = Cert.Spec.pre f g := by
  rw [xinj4 t y, PayIdx.pay3_apply]
  exact congrArg₂ Cert.Spec.pre (funext hf) (funext hg)

/-- Point `t` writes back tile `t` of the pre-margin logits. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext y
  obtain ⟨-, -, -, -, -, -, -, -, e0, e1, -, -, -, -, s0, -⟩ := idx_facts t
  have hy0 : (y 0).val < 256 := lt_of_lt_of_eq (y 0).isLt s0
  have hy1 : (y 1).val < win0_4.xsize (grid0.coords t) (1 : Fin 2) := (y 1).isLt
  show k0_pay3 (F := Ideal) (ktile m c t) (iblk m c 0 t) (win0_4.xinj (grid0.coords t) y)
    = G4 m c (((cfg0.win 4).blk t).view.emb y)
  have he : ((cfg0.win 4).blk t).view.emb y
      = ix2 (n0 := 256) (n1 := 100000) ⟨(y 0).val, hy0⟩ ⟨t.val * 2048 + (y 1).val, col_lt t hy1⟩ := by
    funext a; apply Fin.ext
    match a with
    | ⟨0, _⟩ => show win0_4.index t (0 : Fin 2) * 256 + 1 * (y 0).val = (y 0).val; omega
    | ⟨1, _⟩ => show win0_4.index t (1 : Fin 2) * 2048 + 1 * (y 1).val = t.val * 2048 + (y 1).val; omega
  refine Eq.trans ?_ (congrArg (G4 m c) he).symm
  rw [G4_apply]
  exact pay3_at t y (ktile m c t) (iblk m c 0 t) _ _ (fun k => feat_row m c t _ k) (fun k => ktile_col m c t k _ hy1)

theorem xinj6 (t : Fin cfg0.N) (y : (win0_6.xblock (grid0.coords t)).Idx) :
    win0_6.xinj (grid0.coords t) y
      = ix2 (n0 := 256) (n1 := 2048) ⟨(y 0).val, lt_of_lt_of_le (y 0).isLt (win0_6.xsize_le (grid0.coords t) 0)⟩
          ⟨(y 1).val, lt_of_lt_of_le (y 1).isLt (win0_6.xsize_le (grid0.coords t) 1)⟩ :=
  funext fun a => Fin.ext (by match a with | ⟨0, _⟩ => rfl | ⟨1, _⟩ => rfl)

/-- The logit tile at an entry of its moved part. -/
theorem pay4_at (t : Fin cfg0.N) (y : (win0_5.xblock (grid0.coords t)).Idx) (K : Vec Ideal S512x2048 .f32)
    (x0 : Vec Ideal S256x512 .f32) (x2 : Vec Ideal S256x1 .i32) (x3 : Vec Ideal S256x1 .f32) (f g : Fin 512 → EReal)
    (lab : BitVec 32) (mg : EReal)
    (hf : ∀ k, x0 (ix2 ⟨(y 0).val, lt_of_lt_of_le (y 0).isLt (win0_5.xsize_le (grid0.coords t) 0)⟩ k) = f k)
    (hg : ∀ k, K (ix2 k ⟨(y 1).val, lt_of_lt_of_le (y 1).isLt (win0_5.xsize_le (grid0.coords t) 1)⟩) = g k)
    (hl : x2 (ix2 ⟨(y 0).val, lt_of_lt_of_le (y 0).isLt (win0_5.xsize_le (grid0.coords t) 0)⟩ 0) = lab)
    (hm : x3 (ix2 ⟨(y 0).val, lt_of_lt_of_le (y 0).isLt (win0_5.xsize_le (grid0.coords t) 0)⟩ 0) = mg) :
    k0_pay4 (F := Ideal) (grid0.coords t) K x0 x2 x3 (win0_5.xinj (grid0.coords t) y)
      = Cert.Spec.logit f g lab (BitVec.ofNat 32 ((grid0.coords t 0).val * 2048 + (y 1).val)) mg := by
  rw [xinj5 t y, PayIdx.pay4_apply, funext hf, funext hg, hl, hm]

/-- The one-hot tile at an entry of its moved part. -/
theorem pay2_at (t : Fin cfg0.N) (y : (win0_6.xblock (grid0.coords t)).Idx) (x2 : Vec Ideal S256x1 .i32) (lab : BitVec 32)
    (hl : x2 (ix2 ⟨(y 0).val, lt_of_lt_of_le (y 0).isLt (win0_6.xsize_le (grid0.coords t) 0)⟩ 0) = lab) :
    k0_pay2 (F := Ideal) (grid0.coords t) x2 (win0_6.xinj (grid0.coords t) y)
      = Cert.Spec.hot lab (BitVec.ofNat 32 ((grid0.coords t 0).val * 2048 + (y 1).val)) := by
  rw [xinj6 t y, PayIdx.pay2_apply, hl]

/-- The one coordinate of grid point `t` is `t`. -/
theorem coord_eq : ∀ t : Fin cfg0.N, (grid0.coords t 0).val = t.val :=
  (by decide +kernel : ∀ t : Fin grid0.N, (grid0.coords t 0).val = t.val)

/-- Point `t` writes back tile `t` of the logits. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext y
  obtain ⟨-, -, -, -, -, -, -, -, -, -, e0, e1, -, -, -, s0, -⟩ := idx_facts t
  have hy0 : (y 0).val < 256 := lt_of_lt_of_eq (y 0).isLt s0
  have hy1 : (y 1).val < win0_4.xsize (grid0.coords t) (1 : Fin 2) := lt_of_lt_of_eq (y 1).isLt (xsizes t).2.2.1
  show k0_pay4 (F := Ideal) (grid0.coords t) (ktile m c t) (iblk m c 0 t) (iblk m c 2 t) (iblk m c 3 t) (win0_5.xinj (grid0.coords t) y)
    = G5 m c (((cfg0.win 5).blk t).view.emb y)
  have he : ((cfg0.win 5).blk t).view.emb y
      = ix2 (n0 := 256) (n1 := 100000) ⟨(y 0).val, hy0⟩ ⟨t.val * 2048 + (y 1).val, col_lt t hy1⟩ := by
    funext a; apply Fin.ext
    match a with
    | ⟨0, _⟩ => show win0_5.index t (0 : Fin 2) * 256 + 1 * (y 0).val = (y 0).val; omega
    | ⟨1, _⟩ => show win0_5.index t (1 : Fin 2) * 2048 + 1 * (y 1).val = t.val * 2048 + (y 1).val; omega
  refine Eq.trans ?_ (congrArg (G5 m c) he).symm
  rw [G5_apply]
  have hc : (grid0.coords t 0).val * 2048 + (y 1).val = t.val * 2048 + (y 1).val := by rw [coord_eq t]
  refine (pay4_at t y (ktile m c t) (iblk m c 0 t) (iblk m c 2 t) (iblk m c 3 t) _ _ _ _ (fun k => feat_row m c t _ k)
    (fun k => ktile_col m c t k _ hy1) (lab_row m c t _) (marg_row m c t _)).trans ?_
  rw [hc]

/-- Point `t` writes back tile `t` of the one-hot array. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨-, -, -, -, -, -, -, -, -, -, -, -, e0, e1, -, -, s0, -⟩ := idx_facts t
  have hy0 : (y 0).val < 256 := lt_of_lt_of_eq (y 0).isLt s0
  have hy1 : (y 1).val < win0_4.xsize (grid0.coords t) (1 : Fin 2) := lt_of_lt_of_eq (y 1).isLt (xsizes t).2.2.2
  show k0_pay2 (F := Ideal) (grid0.coords t) (iblk m c 2 t) (win0_6.xinj (grid0.coords t) y)
    = G6 m c (((cfg0.win 6).blk t).view.emb y)
  have he : ((cfg0.win 6).blk t).view.emb y
      = ix2 (n0 := 256) (n1 := 100000) ⟨(y 0).val, hy0⟩ ⟨t.val * 2048 + (y 1).val, col_lt t hy1⟩ := by
    funext a; apply Fin.ext
    match a with
    | ⟨0, _⟩ => show win0_6.index t (0 : Fin 2) * 256 + 1 * (y 0).val = (y 0).val; omega
    | ⟨1, _⟩ => show win0_6.index t (1 : Fin 2) * 2048 + 1 * (y 1).val = t.val * 2048 + (y 1).val; omega
  refine Eq.trans ?_ (congrArg (G6 m c) he).symm
  rw [G6_apply]
  have hc : (grid0.coords t 0).val * 2048 + (y 1).val = t.val * 2048 + (y 1).val := by rw [coord_eq t]
  refine (pay2_at t y (iblk m c 2 t) _ (lab_row m c t _)).trans ?_
  rw [hc]

/-! ## The tiles cover the arrays -/

theorem mem_blk4 (t : Fin cfg0.N) (i : S256x100000.Idx) :
    i ∈ ((cfg0.win 4).blk t).view.set ↔ ∀ a : Fin 2, win0_4.index t a * S256x2048.size a ≤ (i a).val
      ∧ (i a).val < win0_4.index t a * S256x2048.size a + win0_4.xsize (grid0.coords t) a := by
  show i ∈ ((View.whole main_v11_0).slice (win0_4.rect t)).set ↔ _
  rw [View.set_slice_whole, Rect.mem_set_unit]
  exact Iff.rfl
theorem mem_blk5 (t : Fin cfg0.N) (i : S256x100000.Idx) :
    i ∈ ((cfg0.win 5).blk t).view.set ↔ ∀ a : Fin 2, win0_5.index t a * S256x2048.size a ≤ (i a).val
      ∧ (i a).val < win0_5.index t a * S256x2048.size a + win0_5.xsize (grid0.coords t) a := by
  show i ∈ ((View.whole main_v11_1).slice (win0_5.rect t)).set ↔ _
  rw [View.set_slice_whole, Rect.mem_set_unit]
  exact Iff.rfl
theorem mem_blk6 (t : Fin cfg0.N) (i : S256x100000.Idx) :
    i ∈ ((cfg0.win 6).blk t).view.set ↔ ∀ a : Fin 2, win0_6.index t a * S256x2048.size a ≤ (i a).val
      ∧ (i a).val < win0_6.index t a * S256x2048.size a + win0_6.xsize (grid0.coords t) a := by
  show i ∈ ((View.whole main_v11_2).slice (win0_6.rect t)).set ↔ _
  rw [View.set_slice_whole, Rect.mem_set_unit]
  exact Iff.rfl

/-- The tile that holds column `q`. -/
def tileOf (q : Fin 100000) : Fin cfg0.N := ⟨q.val / 2048, lt_of_lt_of_eq (by have := q.isLt; omega) N_0.symm⟩

theorem tileOf_val (q : Fin 100000) : (tileOf q).val = q.val / 2048 := rfl

/-- Column `q` lies among the columns tile `tileOf q` moves. -/
theorem tileOf_spec (q : Fin 100000) :
    (tileOf q).val * 2048 ≤ q.val ∧ q.val < (tileOf q).val * 2048 + win0_4.xsize (grid0.coords (tileOf q)) (1 : Fin 2) := by
  obtain ⟨-, -, -, -, -, -, -, -, -, -, -, -, -, -, -, -, -, h1, h2⟩ := idx_facts (tileOf q)
  have hq := q.isLt
  have hv := tileOf_val q
  by_cases h : (tileOf q).val < 48
  · have := h1 h; omega
  · have := h2 (by omega); omega

theorem cover4 (i : S256x100000.Idx) : ∃ t : Fin cfg0.N, (cfg0.win 4).flush t = true ∧ i ∈ ((cfg0.win 4).blk t).view.set := by
  refine ⟨tileOf (i 1), flush0_4 _, ?_⟩
  rw [mem_blk4]
  obtain ⟨-, -, -, -, -, -, -, -, e0, e1, -, -, -, -, s0, -⟩ := idx_facts (tileOf (i 1))
  have hs := tileOf_spec (i 1)
  have h0 : (i 0).val < 256 := (i 0).isLt
  intro a
  match a with
  | ⟨0, _⟩ =>
    show win0_4.index (tileOf (i 1)) (0 : Fin 2) * 256 ≤ (i 0).val
      ∧ (i 0).val < win0_4.index (tileOf (i 1)) (0 : Fin 2) * 256 + win0_4.xsize (grid0.coords (tileOf (i 1))) (0 : Fin 2)
    omega
  | ⟨1, _⟩ =>
    show win0_4.index (tileOf (i 1)) (1 : Fin 2) * 2048 ≤ (i 1).val
      ∧ (i 1).val < win0_4.index (tileOf (i 1)) (1 : Fin 2) * 2048 + win0_4.xsize (grid0.coords (tileOf (i 1))) (1 : Fin 2)
    omega

theorem cover5 (i : S256x100000.Idx) : ∃ t : Fin cfg0.N, (cfg0.win 5).flush t = true ∧ i ∈ ((cfg0.win 5).blk t).view.set := by
  refine ⟨tileOf (i 1), flush0_5 _, ?_⟩
  rw [mem_blk5]
  obtain ⟨-, -, -, -, -, -, -, -, -, -, e0, e1, -, -, -, s0, -⟩ := idx_facts (tileOf (i 1))
  have hs := tileOf_spec (i 1)
  have hx := (xsizes (tileOf (i 1))).2.2.1
  have h0 : (i 0).val < 256 := (i 0).isLt
  intro a
  match a with
  | ⟨0, _⟩ =>
    show win0_5.index (tileOf (i 1)) (0 : Fin 2) * 256 ≤ (i 0).val
      ∧ (i 0).val < win0_5.index (tileOf (i 1)) (0 : Fin 2) * 256 + win0_5.xsize (grid0.coords (tileOf (i 1))) (0 : Fin 2)
    omega
  | ⟨1, _⟩ =>
    show win0_5.index (tileOf (i 1)) (1 : Fin 2) * 2048 ≤ (i 1).val
      ∧ (i 1).val < win0_5.index (tileOf (i 1)) (1 : Fin 2) * 2048 + win0_5.xsize (grid0.coords (tileOf (i 1))) (1 : Fin 2)
    omega

theorem cover6 (i : S256x100000.Idx) : ∃ t : Fin cfg0.N, (cfg0.win 6).flush t = true ∧ i ∈ ((cfg0.win 6).blk t).view.set := by
  refine ⟨tileOf (i 1), flush0_6 _, ?_⟩
  rw [mem_blk6]
  obtain ⟨-, -, -, -, -, -, -, -, -, -, -, -, e0, e1, -, -, s0, -⟩ := idx_facts (tileOf (i 1))
  have hs := tileOf_spec (i 1)
  have hx := (xsizes (tileOf (i 1))).2.2.2
  have h0 : (i 0).val < 256 := (i 0).isLt
  intro a
  match a with
  | ⟨0, _⟩ =>
    show win0_6.index (tileOf (i 1)) (0 : Fin 2) * 256 ≤ (i 0).val
      ∧ (i 0).val < win0_6.index (tileOf (i 1)) (0 : Fin 2) * 256 + win0_6.xsize (grid0.coords (tileOf (i 1))) (0 : Fin 2)
    omega
  | ⟨1, _⟩ =>
    show win0_6.index (tileOf (i 1)) (1 : Fin 2) * 2048 ≤ (i 1).val
      ∧ (i 1).val < win0_6.index (tileOf (i 1)) (1 : Fin 2) * 2048 + win0_6.xsize (grid0.coords (tileOf (i 1))) (1 : Fin 2)
    omega

/-! ## The arrays after the run -/

theorem final4 (c : Dev nD) : (dats m 0 c).arrAt 4 cfg0.N = G4 m c :=
  (dats m 0 c).arrAt_eq_of_cover 4 (G4 m c) (fun t _ => flushed4_eq m c t) cover4
theorem final5 (c : Dev nD) : (dats m 0 c).arrAt 5 cfg0.N = G5 m c :=
  (dats m 0 c).arrAt_eq_of_cover 5 (G5 m c) (fun t _ => flushed5_eq m c t) cover5
theorem final6 (c : Dev nD) : (dats m 0 c).arrAt 6 cfg0.N = G6 m c :=
  (dats m 0 c).arrAt_eq_of_cover 6 (G6 m c) (fun t _ => flushed6_eq m c t) cover6

/-- THE RUN, READ: the four results end at the reference's stages of the arguments, the arguments unchanged. -/
theorem run : θ_run defs (onTc (τ := τ) (main (F := Ideal))) ⟨m, fun _ => 0, ρ⟩ fun r => ∀ c : Dev nD,
      r.2.mem ((c.tc : Thread nD τ).loc main_v11_0) = G4 m c
      ∧ r.2.mem ((c.tc : Thread nD τ).loc main_v11_1) = G5 m c
      ∧ r.2.mem ((c.tc : Thread nD τ).loc main_v0) = val_main_v0 (F := Ideal) (m ((c : Thread nD τ).loc main_arg0))
      ∧ r.2.mem ((c.tc : Thread nD τ).loc main_v11_2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c), ((h c).1 5).trans (final5 m c),
      ((h c).2 main_v0 (Pipeline.mem_restRefs_of main_v0 (by decide) (by decide))).trans (V_v0 m c),
      ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Arrays

end
-- ==== Proof.lean ====
/-
  The certificate: a tiled cosine-margin classifier head against its plain reference, over the extended reals.

  Both programs take features (256 x 512), a class matrix K (512 x 100000), raw margins (256 x 1) and labels (256),
  and return the pre-margin logits 64 * cos, the logits 64 * (cos - onehot * margin), the feature norms and the one-hot
  array, where cos(b, c) is the clipped inner product of feature row b, divided by its floored norm, with column c of
  K divided by its floored norm. The kernel divides the features and clips the margins on the host exactly as the
  reference does, then walks the 100000 columns in 49 tiles of 2048: per tile it takes the sum of squares down each
  column, divides, multiplies the 256 x 512 features into the 512 x 2048 tile, clips, compares the labels with the
  tile's global column numbers, and stores three 256 x 2048 tiles. The last tile overhangs K by 352 columns.

  Why the two agree: every value at column c depends on column c of K alone, so the words past K's last column
  only reach output columns that are never written back; on the columns inside, tile t at column j is column
  2048 t + j of the whole array, and there the kernel and the reference spell the same operations in the same order
  (a matrix product into a zero accumulator and the host's product are the same sum; a sum of squares with or
  without a leading zero is the same sum; a zero-extended comparison bit read signed is the bit). No law of the
  extended reals is needed beyond 0 + x = x, and the precondition is never opened.

  The three frames: the word-level kernel's from proof data that say nothing of any staging buffer (its body only
  loads, computes and stores whole buffers); the idealized kernel's from the run that names its outputs; the
  reference's from its run with the results dropped. The idealization rewrote nothing, so `preserves` is trivial.
-/
import proofs.«135469_j16200616640758_1_alg».proof.Defs
import proofs.«135469_j16200616640758_1_alg».proof.Proof.Gen.Kernel
import proofs.«135469_j16200616640758_1_alg».proof.Proof.Gen.KernelIdeal
import proofs.«135469_j16200616640758_1_alg».proof.Proof.Gen.ReferenceIdeal
import proofs.«135469_j16200616640758_1_alg».proof.Proof.Gen.Pre_finite_inputs
import proofs.«135469_j16200616640758_1_alg».proof.Proof.KFrame
import proofs.«135469_j16200616640758_1_alg».proof.Proof.IValue

noncomputable section

namespace Cert.Proof

open Idealize.ShloMosaic Idealize.SL.Sem

theorem frame_k : Cert.frame_Kernel := fun m ρ _ => Cert.Kernel.Runs.frame (F := Bits) m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both runs end with the four results at the same functions of the arguments: the kernel's by its tiles covering the
    arrays, the reference's by its own run. -/
theorem algebraic : Cert.algebraic_KernelIdeal_ReferenceIdeal := by
  intro m ρ m' ρ' _ hagree
  refine ⟨fun c => Cert.KernelIdeal.Arrays.G4 m c, fun c => Cert.KernelIdeal.Arrays.G5 m c,
    fun c => Cert.ReferenceIdeal.Read.val_main_v0 (F := Ideal) (m ((c.tc : Thread Cert.KernelIdeal.nD Cert.KernelIdeal.τ).loc Cert.KernelIdeal.main_arg0)),
    fun c => Cert.KernelIdeal.Arrays.G6 m c, Cert.KernelIdeal.Arrays.run m ρ, ?_⟩
  refine (θ_run Cert.ReferenceIdeal.defs _ _).mono (fun _ h c =>
    ⟨(h c).1.trans ?_, (h c).2.1.trans ?_, (h c).2.2.1.trans ?_, (h c).2.2.2.1.trans ?_, (h c).2.2.2.2⟩)
    (Cert.ReferenceIdeal.Value.run (F := Ideal) m' ρ')
  · rw [(hagree c).1, (hagree c).2.1]
    exact Cert.ReferenceIdeal.Read.val_main_v19_eq _ _
  · rw [(hagree c).1, (hagree c).2.1, (hagree c).2.2.1, (hagree c).2.2.2]
    exact Cert.ReferenceIdeal.Read.val_main_v24_eq _ _ _ _
  · rw [(hagree c).1]
    exact Cert.ReferenceIdeal.Read.val_main_v0_eq _
  · rw [(hagree c).2.2.2]
    exact Cert.ReferenceIdeal.Read.val_main_v17_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
